-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c400_i32 : BitVec 32 := 400#32
  let v17 : BitVec 32 := Scalar.muli arg1 c400_i32
  let v18 : Index := Scalar.indexCast v17
  let c0_11 : Index := 0#32
  ![v18.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h1 : k0_cond1 i = 1#1), ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.BitsLayerRuns.lean ====
import proofs.«148935_g75711683494057_cont_sun_c4_486_14_alg».proof.Proof.Gen.Kernel.Frame
import proofs.«148935_g75711683494057_cont_sun_c4_486_14_alg».proof.Proof.Gen.Kernel.Skeleton
import Idealize.ShloMosaic.Lib.Pipeline.Value

set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Gen

/-! ## The kernel body, one graph-convolution layer at a time

The grid is (layer, row tile). At a point of layer 0 the body multiplies the point's 400 rows of the adjacency
by the features, then by the first weight matrix, adds the first bias, clamps at zero from below, and stores the
400 × 128 result into rows 400·tile … 400·tile + 399 of the scratch; it touches nothing else. At a point of
layer 1 it reads the whole scratch as the layer's input, does the same with the second weights and bias, and
stores the result into the output block. -/

/-- Zero offsets, as the body's whole-buffer loads and stores spell them. -/
theorem zeroOffsets : (![0, 0] : Fin 2 → ℕ) = fun _ => 0 := by
  funext a; fin_cases a <;> rfl

/-- A point of LAYER 0 (the first conditional taken, the second not). From the adjacency rows `x1`, the features
    `x0`, the first weights `x2` and bias `x3` in their staging buffers and the scratch at any contents `s`, the
    body ends with those buffers as they were and the scratch at `s` with ONE piece written over it: rows
    `k0_off1 i` onward, 400 of them, holding the layer's value `k0_pay1 x1 x0 x2 x3`. -/
theorem run_layer0 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (hc0 : k0_cond1 i = 1#1) (hc1 : ¬ k0_cond2 i = 1#1)
    (x0 : Vec F S10000x128 .f32) (x1 : Vec F S400x10000 .f32) (x2 : Vec F S128x128 .f32) (x3 : Vec F S1x128 .f32) (s : Vec F S10000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare s
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg9 fullShare (arg9.view.read (Elt F) (arg9.view.writes (Elt F) (harg9.unread s)
                    [⟨Rect.unit (s := S10000x128) (k0_off1 i) S400x128.size (k0_off1_inb i hc0), k0_pay1 x1 x0 x2 x3⟩]))) -∗ K ⟨⟩))
          ⊢ wp frame (wpE (defs₀ (F := F)) Variants.none c none) E (cc0__body i arg2 harg2 arg3 harg3 arg4 harg4 arg5 harg5 arg6 harg6 arg7 harg7 arg8 harg8 arg9 harg9) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact HS
    ipureintro
    simp only [View.readAt_eq_ld, harg2.read_unread, harg3.read_unread, harg4.read_unread, harg5.read_unread,
      View.ld_unit_zero (S := S400x10000) zeroOffsets, View.ld_unit_zero (S := S10000x128) zeroOffsets,
      View.ld_unit_zero (S := S128x128) zeroOffsets, View.ld_unit_zero (S := S1x128) zeroOffsets]

/-- A point of LAYER 1 (the first conditional not taken, the second taken). From the adjacency rows `x1`, the
    second weights `x4` and bias `x5` in their staging buffers, the scratch at contents `s` (the layer's input)
    and the output's staging buffer at anything, the body ends with the inputs and the scratch as they were and the
    output's staging buffer at the layer's value `k0_pay2 x1 s x4 x5`. -/
theorem run_layer1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (hc0 : ¬ k0_cond1 i = 1#1) (hc1 : k0_cond2 i = 1#1)
    (x1 : Vec F S400x10000 .f32) (x4 : Vec F S128x128 .f32) (x5 : Vec F S1x128 .f32) (s : Vec F S10000x128 .f32) :
      ∀ (E : Set ℕ) (K : PUnit → sProp 𝕄),
        iprop(owns (c : Thread nD τ) arg3 fullShare x1 ∗ owns (c : Thread nD τ) arg6 fullShare x4 ∗ owns (c : Thread nD τ) arg7 fullShare x5 ∗ (∃ d, owns (c : Thread nD τ) arg8 fullShare d) ∗ owns (c : Thread nD τ) arg9 fullShare s
            ∗ (iprop(owns (c : Thread nD τ) arg3 fullShare x1 ∗ owns (c : Thread nD τ) arg6 fullShare x4 ∗ owns (c : Thread nD τ) arg7 fullShare x5
                ∗ owns (c : Thread nD τ) arg8 fullShare (k0_pay2 x1 s x4 x5) ∗ owns (c : Thread nD τ) arg9 fullShare s) -∗ K ⟨⟩))
          ⊢ wp frame (wpE (defs₀ (F := F)) Variants.none c none) E (cc0__body i arg2 harg2 arg3 harg3 arg4 harg4 arg5 harg5 arg6 harg6 arg7 harg7 arg8 harg8 arg9 harg9) K := by
    intro E K
    simp only [cc0__body_eq_skeleton]; unfold cc0__body_skel
    unfold owns
    iintro ⟨⟨%f1, %hf1, H1⟩, ⟨%f4, %hf4, H4⟩, ⟨%f5, %hf5, H5⟩, ⟨%d6, %f6, -, H6⟩, ⟨%fs, %hfs, HS⟩, Hk⟩
    obtain rfl := harg3.eq_unread hf1; obtain rfl := harg6.eq_unread hf4; obtain rfl := harg7.eq_unread hf5; obtain rfl := harg9.eq_unread hfs
    sl_exec (disch := first | exact hc0 | exact hc1)
    sl_step
    iapply Hk
    isplitl [H1]
    · iexists _; isplitr; · ipureintro; exact harg3.read_unread _
      iexact H1
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_eq_canon _ _ _ (fun y => ⟨_, List.mem_singleton_self _, View.mem_set_unit_zero zeroOffsets inb_S400x128_S400x128_0_0 y⟩),
        View.canon_unit_zero zeroOffsets]
      simp only [View.readAt_eq_ld, harg3.read_unread, harg6.read_unread, harg7.read_unread, harg9.read_unread,
        View.ld_unit_zero (S := S400x10000) zeroOffsets, View.ld_unit_zero (S := S10000x128) zeroOffsets,
        View.ld_unit_zero (S := S128x128) zeroOffsets, View.ld_unit_zero (S := S1x128) zeroOffsets]
    iexists _; isplitr; · ipureintro; exact harg9.read_unread _
    iexact HS

end Cert.Kernel.Layers

end
-- ==== Proof.BitsLayerFrame.lean ====
import proofs.«148935_g75711683494057_cont_sun_c4_486_14_alg».proof.Proof.BitsLayerRuns
import Idealize.ShloMosaic.Lib.WritesUnit
import Idealize.ShloMosaic.Lib.ValueIdx

set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Gen

variable (m : (ℓ : Loc nD τ sig) → Buf (Elt F) ℓ) (ρ : Dev nD → PrngReg)

/-! ## The schedule: fifty points, twenty-five row tiles per layer

Point `t` is (layer `t / 25`, tile `t % 25`). The facts below are decided over the fifty points. -/

/-- The first conditional is taken exactly at the points of layer 0, -/
theorem layer0_iff : ∀ t : Fin cfg0.N, k0_cond1 (grid0.coords t) = 1#1 ↔ t.val < 25 :=
  (by decide +kernel : ∀ t : Fin grid0.N, k0_cond1 (grid0.coords t) = 1#1 ↔ t.val < 25)
/-- the second exactly at the points of layer 1. -/
theorem layer1_iff : ∀ t : Fin cfg0.N, k0_cond2 (grid0.coords t) = 1#1 ↔ 25 ≤ t.val :=
  (by decide +kernel : ∀ t : Fin grid0.N, k0_cond2 (grid0.coords t) = 1#1 ↔ 25 ≤ t.val)
/-- Tile `t` of layer 0 stores its rows at row `400 · t`, column 0 of the scratch. -/
theorem sliceStart : ∀ t : Fin cfg0.N, t.val < 25 → k0_off1 (grid0.coords t) = ![400 * t.val, 0] :=
  (by decide +kernel : ∀ t : Fin grid0.N, t.val < 25 → k0_off1 (grid0.coords t) = ![400 * t.val, 0])

/-- The six input windows are stored into at no point. -/
theorem in0_live : ∀ t : Fin cfg0.N, cfg0.idle 0 (grid0.coords t) = false := by decide +kernel
theorem in1_live : ∀ t : Fin cfg0.N, cfg0.idle 1 (grid0.coords t) = false := by decide +kernel
theorem in2_live : ∀ t : Fin cfg0.N, cfg0.idle 2 (grid0.coords t) = false := by decide +kernel
theorem in3_live : ∀ t : Fin cfg0.N, cfg0.idle 3 (grid0.coords t) = false := by decide +kernel
theorem in4_live : ∀ t : Fin cfg0.N, cfg0.idle 4 (grid0.coords t) = false := by decide +kernel
theorem in5_live : ∀ t : Fin cfg0.N, cfg0.idle 5 (grid0.coords t) = false := by decide +kernel
/-- The output window is left alone through layer 0, and its block (block 0 throughout that layer) is not written
    back there; -/
theorem out_idle : ∀ t : Fin cfg0.N, t.val < 25 → cfg0.idle 6 (grid0.coords t) = true :=
  (by decide +kernel : ∀ t : Fin grid0.N, t.val < 25 → cfg0.idle 6 (grid0.coords t) = true)
theorem out_kept : ∀ t : Fin cfg0.N, t.val < 25 → (cfg0.win 6).flush t = false :=
  (by decide +kernel : ∀ t : Fin grid0.N, t.val < 25 → win0_6.flush t = false)
/-- it is stored at every point of layer 1. -/
theorem out_live : ∀ t : Fin cfg0.N, 25 ≤ t.val → cfg0.idle 6 (grid0.coords t) = false :=
  (by decide +kernel : ∀ t : Fin grid0.N, 25 ≤ t.val → cfg0.idle 6 (grid0.coords t) = false)

/-! ## The staging buffers at a point, the scratch, and the class invariant -/

abbrev buf0 (t : Fin cfg0.N) : Memref sig .tc .vmem S10000x128 .f32 := win0_0.stage (cfg0.slots t 0)
abbrev buf0_whole (t : Fin cfg0.N) : (buf0 t).IsWhole := hstage0_0 ((cfg0.slots t 0).cast nbuf0_0)
abbrev buf1 (t : Fin cfg0.N) : Memref sig .tc .vmem S400x10000 .f32 := win0_1.stage (cfg0.slots t 1)
abbrev buf1_whole (t : Fin cfg0.N) : (buf1 t).IsWhole := hstage0_1 ((cfg0.slots t 1).cast nbuf0_1)
abbrev buf2 (t : Fin cfg0.N) : Memref sig .tc .vmem S128x128 .f32 := win0_2.stage (cfg0.slots t 2)
abbrev buf2_whole (t : Fin cfg0.N) : (buf2 t).IsWhole := hstage0_2 ((cfg0.slots t 2).cast nbuf0_2)
abbrev buf3 (t : Fin cfg0.N) : Memref sig .tc .vmem S1x128 .f32 := win0_3.stage (cfg0.slots t 3)
abbrev buf3_whole (t : Fin cfg0.N) : (buf3 t).IsWhole := hstage0_3 ((cfg0.slots t 3).cast nbuf0_3)
abbrev buf4 (t : Fin cfg0.N) : Memref sig .tc .vmem S128x128 .f32 := win0_4.stage (cfg0.slots t 4)
abbrev buf4_whole (t : Fin cfg0.N) : (buf4 t).IsWhole := hstage0_4 ((cfg0.slots t 4).cast nbuf0_4)
abbrev buf5 (t : Fin cfg0.N) : Memref sig .tc .vmem S1x128 .f32 := win0_5.stage (cfg0.slots t 5)
abbrev buf5_whole (t : Fin cfg0.N) : (buf5 t).IsWhole := hstage0_5 ((cfg0.slots t 5).cast nbuf0_5)
abbrev buf6 (t : Fin cfg0.N) : Memref sig .tc .vmem S400x128 .f32 := win0_6.stage (cfg0.slots t 6)
abbrev buf6_whole (t : Fin cfg0.N) : (buf6 t).IsWhole := hstage0_6 ((cfg0.slots t 6).cast nbuf0_6)
/-- The hidden layer's buffer: the kernel's one scratch operand, whole. -/
abbrev scratchRef : Memref sig .tc .vmem S10000x128 .f32 := Memref.whole cc0_scratch0

/-- What the launch hands the region and takes back: the scratch at any contents and the generator register. -/
theorem classInv_eq (c : Dev nD) :
    (Pipeline.ΦA spec0 c : sProp 𝕄)
      = iprop(iprop((∃ d, owns (c : Thread nD τ) scratchRef fullShare d)) ∗ (∃ r, prngReg c r)) := by
  unfold Pipeline.ΦA; rw [scopedRest0_eq]; simp only [scratchRef, owns_whole]; try rfl

/-! ## The blocks, and the two layers' values

Each input window's block at a point, at its literal type; the hidden layer as layer 0 leaves it in the scratch
(row `r` is row `r % 400` of what tile `r / 400` computes); the output's block at a point of layer 1. -/

abbrev featBlk (c : Dev nD) (t : Fin cfg0.N) : Vec F S10000x128 .f32 := iblk m c 0 t
abbrev adjBlk (c : Dev nD) (t : Fin cfg0.N) : Vec F S400x10000 .f32 := iblk m c 1 t
abbrev w1Blk (c : Dev nD) (t : Fin cfg0.N) : Vec F S128x128 .f32 := iblk m c 2 t
abbrev b1Blk (c : Dev nD) (t : Fin cfg0.N) : Vec F S1x128 .f32 := iblk m c 3 t
abbrev w2Blk (c : Dev nD) (t : Fin cfg0.N) : Vec F S128x128 .f32 := iblk m c 4 t
abbrev b2Blk (c : Dev nD) (t : Fin cfg0.N) : Vec F S1x128 .f32 := iblk m c 5 t

/-- What tile `t` of layer 0 computes: relu((adjacency rows · features) · W1 + b1), 400 × 128. -/
def hiddenTile (c : Dev nD) (t : Fin cfg0.N) : Vec F S400x128 .f32 :=
  k0_pay1 (adjBlk m c t) (featBlk m c t) (w1Blk m c t) (b1Blk m c t)

/-- The layer-0 point whose tile holds row `y 0`, -/
def tileOf (y : S10000x128.Idx) : Fin cfg0.N :=
  ⟨(y 0).val / 400, by have h : (y 0).val < 10000 := ValueIdx.idx2_lt0 y; rw [show cfg0.N = 50 from N_0]; omega⟩
/-- and the row's place inside that tile. -/
def rowIn (y : S10000x128.Idx) : S400x128.Idx :=
  ValueIdx.ix2 (⟨(y 0).val % 400, Nat.mod_lt _ (by norm_num)⟩ : Fin 400) (⟨(y 1).val, ValueIdx.idx2_lt1 y⟩ : Fin 128)

/-- The hidden layer, all 10000 rows. -/
def hidden (c : Dev nD) : Vec F S10000x128 .f32 := fun y => hiddenTile m c (tileOf y) (rowIn y)

/-- What a point of layer 1 computes from the hidden layer: relu((adjacency rows · hidden) · W2 + b2). -/
def outTile (c : Dev nD) (t : Fin cfg0.N) : Vec F S400x128 .f32 :=
  k0_pay2 (adjBlk m c t) (hidden m c) (w2Blk m c t) (b2Blk m c t)

/-- Before point `n` the scratch's rows below `400 · n` hold the hidden layer (all of them from point 25 on). -/
def Filled (c : Dev nD) (n : ℕ) (s : Vec F S10000x128 .f32) : Prop :=
  ∀ y : S10000x128.Idx, (y 0).val < 400 * n → s y = hidden m c y

/-- One more tile: the scratch filled below row `400 · t`, with tile `t`'s rows written over it at row `400 · t`,
    is filled below row `400 · (t + 1)`. A row of the new piece reads the piece (it is row `r % 400` of tile
    `r / 400 = t`); a row outside it reads what was there. -/
theorem filled_step {M : Memref sig .tc .vmem S10000x128 .f32} (hM : M.IsWhole) (c : Dev nD) (t : Fin cfg0.N)
    (s : Vec F S10000x128 .f32) (hs : Filled m c t.val s) (off : Fin 2 → ℕ)
    (inb : ∀ a : Fin 2, off a + S400x128.size a ≤ S10000x128.size a) (hoff : off = ![400 * t.val, 0]) :
    Filled m c (t.val + 1) (M.view.read (Elt F) (M.view.writes (Elt F) (hM.unread s)
      [⟨Rect.unit (s := S10000x128) off S400x128.size inb, hiddenTile m c t⟩])) := by
  intro y hy
  by_cases hr : 400 * t.val ≤ (y 0).val
  · have hx0 : (y (0 : Fin 2)).val = 400 * t.val + (rowIn y (0 : Fin 2)).val := by
      show (y 0).val = 400 * t.val + (y 0).val % 400
      omega
    rw [View.read_writes_cons_rows_of_mem M.view _ inb _ [] y (rowIn y) hoff hx0 rfl]
    have ht : tileOf y = t := Fin.ext (by show (y 0).val / 400 = t.val; omega)
    unfold hidden; rw [ht]
  · rw [View.read_writes_cons_rows_of_not_mem M.view _ inb _ [] y hoff rfl (Or.inl (by omega)), View.writes_nil,
      hM.read_unread]
    exact hs y (by omega)

/-- The region's invariant before point `n`: the scratch at contents filled below row `400 · n`, and the generator
    register. -/
def scratchInv (c : Dev nD) (n : ℕ) : sProp 𝕄 :=
  iprop(iprop(∃ s, ⌜Filled m c n s⌝ ∗ owns (c : Thread nD τ) scratchRef fullShare s) ∗ (∃ r, prngReg c r))

/-! ## The pipeline's proof data -/

/-- The arrays as the region finds them; after the body each input's buffer at its block and the output's at the
    point's layer-1 value (at a point of layer 0 the output's buffer is left as found and not written back, so what
    is named there is never read); the invariant `scratchInv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outTile m c t
  Φ t := scratchInv m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t = outTile m c t := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point. At a point of layer 0 the run writes tile `t`'s rows over a scratch filled below row
    `400 · t`, which is then filled below `400 · (t + 1)` (`filled_step`), and hands the output's buffer back as
    found. At a point of layer 1 the scratch is filled throughout, so it IS the hidden layer, and the run leaves the
    point's layer-1 value in the output's buffer and the scratch as it was. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [show (dats m 0 c).Φ t.succ = scratchInv m c (t.val + 1) from rfl,
    show (dats m 0 c).Φ t.castSucc = scratchInv m c t.val from rfl]
  have hN : t.val < 50 := lt_of_lt_of_eq t.isLt (show cfg0.N = 50 from N_0)
  rw [show (dats m 0 c).leavesExact 0 t = owns (c : Thread nD τ) (buf0 t) fullShare ((dats m 0 c).after 0 t) from by
    unfold Dat.leavesExact; rw [in0_live t], after_in0]
  rw [show (dats m 0 c).leavesExact 1 t = owns (c : Thread nD τ) (buf1 t) fullShare ((dats m 0 c).after 1 t) from by
    unfold Dat.leavesExact; rw [in1_live t], after_in1]
  rw [show (dats m 0 c).leavesExact 2 t = owns (c : Thread nD τ) (buf2 t) fullShare ((dats m 0 c).after 2 t) from by
    unfold Dat.leavesExact; rw [in2_live t], after_in2]
  rw [show (dats m 0 c).leavesExact 3 t = owns (c : Thread nD τ) (buf3 t) fullShare ((dats m 0 c).after 3 t) from by
    unfold Dat.leavesExact; rw [in3_live t], after_in3]
  rw [show (dats m 0 c).leavesExact 4 t = owns (c : Thread nD τ) (buf4 t) fullShare ((dats m 0 c).after 4 t) from by
    unfold Dat.leavesExact; rw [in4_live t], after_in4]
  rw [show (dats m 0 c).leavesExact 5 t = owns (c : Thread nD τ) (buf5 t) fullShare ((dats m 0 c).after 5 t) from by
    unfold Dat.leavesExact; rw [in5_live t], after_in5]
  unfold scratchInv
  by_cases h0 : t.val < 25
  · rw [Dat.leavesExact_idle (dats m 0 c) 6 t (out_idle t h0) (out_kept t h0)]
    iintro ⟨⟨⟨%s, %hs, HS⟩, Hg⟩, Ho, ⟨%d0, H0⟩, ⟨%d1, H1⟩, ⟨%d2, H2⟩, ⟨%d3, H3⟩, ⟨%d4, H4⟩, ⟨%d5, H5⟩, H6⟩
    iapply (run_layer0 c (grid0.coords t) (buf0 t) (buf0_whole t) (buf1 t) (buf1_whole t) (buf2 t) (buf2_whole t)
      (buf3 t) (buf3_whole t) (buf4 t) (buf4_whole t) (buf5 t) (buf5_whole t) (buf6 t) (buf6_whole t)
      scratchRef (Memref.isWhole_whole _) ((layer0_iff t).mpr h0) (fun h => absurd ((layer1_iff t).mp h) (by omega))
      (featBlk m c t) (adjBlk m c t) (w1Blk m c t) (b1Blk m c t) s Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; isplitr; swap; · iexact HS
        ipureintro
        exact filled_step m (Memref.isWhole_whole _) c t s hs _ _ (sliceStart t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h1 : 25 ≤ t.val := by omega
    rw [show (dats m 0 c).leavesExact 6 t = owns (c : Thread nD τ) (buf6 t) fullShare ((dats m 0 c).after 6 t) from by
      unfold Dat.leavesExact; rw [out_live t h1], after_out]
    unfold outTile
    iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
    obtain rfl : s = hidden m c := funext fun y => hs y (by have := ValueIdx.idx2_lt0 y; omega)
    iapply (run_layer1 c (grid0.coords t) (buf0 t) (buf0_whole t) (buf1 t) (buf1_whole t) (buf2 t) (buf2_whole t)
      (buf3 t) (buf3_whole t) (buf4 t) (buf4_whole t) (buf5 t) (buf5_whole t) (buf6 t) (buf6_whole t)
      scratchRef (Memref.isWhole_whole _) (fun h => absurd ((layer0_iff t).mp h) (by omega)) ((layer1_iff t).mpr h1)
      (adjBlk m c t) (w2Blk m c t) (b2Blk m c t) (hidden m c) Set.univ _)
    isplitl [H1]; · iexact H1
    isplitl [H4]; · iexact H4
    isplitl [H5]; · iexact H5
    isplitl [H6]; · iexists _; iexact H6
    isplitl [HS]; · iexact HS
    iintro ⟨H1, H4, H5, H6, HS⟩
    isplitl [HS Hg]
    · isplitl [HS]
      · iexists _; isplitr; swap; · iexact HS
        ipureintro; intro y _; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- The launch hands the region the scratch at anything: nothing is filled yet. -/
theorem hin (c : Dev nD) : Pipeline.ΦA spec0 c ⊢ (dats m 0 c).Φ 0 := by
  rw [show (dats m 0 c).Φ 0 = scratchInv m c 0 from rfl, classInv_eq]; unfold scratchInv
  iintro ⟨⟨%d, HS⟩, Hg⟩
  isplitl [HS]
  · iexists d; isplitr; · ipureintro; intro y hy; exact absurd hy (by omega)
    iexact HS
  iexact Hg

/-- After the last point what the scratch holds is forgotten. -/
theorem hout (c : Dev nD) : (dats m 0 c).Φ (Fin.last cfg0.N) ⊢ Pipeline.ΦA spec0 c := by
  rw [show (dats m 0 c).Φ (Fin.last cfg0.N) = scratchInv m c (Fin.last cfg0.N).val from rfl, classInv_eq]; unfold scratchInv
  iintro ⟨⟨%s, -, HS⟩, Hg⟩
  isplitl [HS]
  · iexists s; iexact HS
  iexact Hg

/-! ## The run and the frame -/

set_option backward.isDefEq.respectTransparency.types false in
/-- Every weakly fair execution of @main terminates, with every array of the pipeline at what the write-backs of the
    proof data leave (the output's: `Dat.arrAt`) and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Layers

end
-- ==== Proof.IdealLayerRuns.lean ====
import proofs.«148935_g75711683494057_cont_sun_c4_486_14_alg».proof.Proof.Gen.KernelIdeal.Frame
import proofs.«148935_g75711683494057_cont_sun_c4_486_14_alg».proof.Proof.Gen.KernelIdeal.Skeleton
import Idealize.ShloMosaic.Lib.Pipeline.Value

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Gen

/-! ## The kernel body, one graph-convolution layer at a time

The grid is (layer, row tile). At a point of layer 0 the body multiplies the point's 400 rows of the adjacency
by the features, then by the first weight matrix, adds the first bias, clamps at zero from below, and stores the
400 × 128 result into rows 400·tile … 400·tile + 399 of the scratch; it touches nothing else. At a point of
layer 1 it reads the whole scratch as the layer's input, does the same with the second weights and bias, and
stores the result into the output block. -/

/-- Zero offsets, as the body's whole-buffer loads and stores spell them. -/
theorem zeroOffsets : (![0, 0] : Fin 2 → ℕ) = fun _ => 0 := by
  funext a; fin_cases a <;> rfl

/-- A point of LAYER 0 (the first conditional taken, the second not). From the adjacency rows `x1`, the features
    `x0`, the first weights `x2` and bias `x3` in their staging buffers and the scratch at any contents `s`, the
    body ends with those buffers as they were and the scratch at `s` with ONE piece written over it: rows
    `k0_off1 i` onward, 400 of them, holding the layer's value `k0_pay1 x1 x0 x2 x3`. -/
theorem run_layer0 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (hc0 : k0_cond1 i = 1#1) (hc1 : ¬ k0_cond2 i = 1#1)
    (x0 : Vec F S10000x128 .f32) (x1 : Vec F S400x10000 .f32) (x2 : Vec F S128x128 .f32) (x3 : Vec F S1x128 .f32) (s : Vec F S10000x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare s
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg9 fullShare (arg9.view.read (Elt F) (arg9.view.writes (Elt F) (harg9.unread s)
                    [⟨Rect.unit (s := S10000x128) (k0_off1 i) S400x128.size (k0_off1_inb i hc0), k0_pay1 x1 x0 x2 x3⟩]))) -∗ K ⟨⟩))
          ⊢ wp frame (wpE (defs₀ (F := F)) Variants.none c none) E (cc0__body i arg2 harg2 arg3 harg3 arg4 harg4 arg5 harg5 arg6 harg6 arg7 harg7 arg8 harg8 arg9 harg9) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact HS
    ipureintro
    simp only [View.readAt_eq_ld, harg2.read_unread, harg3.read_unread, harg4.read_unread, harg5.read_unread,
      View.ld_unit_zero (S := S400x10000) zeroOffsets, View.ld_unit_zero (S := S10000x128) zeroOffsets,
      View.ld_unit_zero (S := S128x128) zeroOffsets, View.ld_unit_zero (S := S1x128) zeroOffsets]

/-- A point of LAYER 1 (the first conditional not taken, the second taken). From the adjacency rows `x1`, the
    second weights `x4` and bias `x5` in their staging buffers, the scratch at contents `s` (the layer's input)
    and the output's staging buffer at anything, the body ends with the inputs and the scratch as they were and the
    output's staging buffer at the layer's value `k0_pay2 x1 s x4 x5`. -/
theorem run_layer1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x128 .f32) (harg9 : arg9.IsWhole) (hc0 : ¬ k0_cond1 i = 1#1) (hc1 : k0_cond2 i = 1#1)
    (x1 : Vec F S400x10000 .f32) (x4 : Vec F S128x128 .f32) (x5 : Vec F S1x128 .f32) (s : Vec F S10000x128 .f32) :
      ∀ (E : Set ℕ) (K : PUnit → sProp 𝕄),
        iprop(owns (c : Thread nD τ) arg3 fullShare x1 ∗ owns (c : Thread nD τ) arg6 fullShare x4 ∗ owns (c : Thread nD τ) arg7 fullShare x5 ∗ (∃ d, owns (c : Thread nD τ) arg8 fullShare d) ∗ owns (c : Thread nD τ) arg9 fullShare s
            ∗ (iprop(owns (c : Thread nD τ) arg3 fullShare x1 ∗ owns (c : Thread nD τ) arg6 fullShare x4 ∗ owns (c : Thread nD τ) arg7 fullShare x5
                ∗ owns (c : Thread nD τ) arg8 fullShare (k0_pay2 x1 s x4 x5) ∗ owns (c : Thread nD τ) arg9 fullShare s) -∗ K ⟨⟩))
          ⊢ wp frame (wpE (defs₀ (F := F)) Variants.none c none) E (cc0__body i arg2 harg2 arg3 harg3 arg4 harg4 arg5 harg5 arg6 harg6 arg7 harg7 arg8 harg8 arg9 harg9) K := by
    intro E K
    simp only [cc0__body_eq_skeleton]; unfold cc0__body_skel
    unfold owns
    iintro ⟨⟨%f1, %hf1, H1⟩, ⟨%f4, %hf4, H4⟩, ⟨%f5, %hf5, H5⟩, ⟨%d6, %f6, -, H6⟩, ⟨%fs, %hfs, HS⟩, Hk⟩
    obtain rfl := harg3.eq_unread hf1; obtain rfl := harg6.eq_unread hf4; obtain rfl := harg7.eq_unread hf5; obtain rfl := harg9.eq_unread hfs
    sl_exec (disch := first | exact hc0 | exact hc1)
    sl_step
    iapply Hk
    isplitl [H1]
    · iexists _; isplitr; · ipureintro; exact harg3.read_unread _
      iexact H1
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [View.read_writes_eq_canon _ _ _ (fun y => ⟨_, List.mem_singleton_self _, View.mem_set_unit_zero zeroOffsets inb_S400x128_S400x128_0_0 y⟩),
        View.canon_unit_zero zeroOffsets]
      simp only [View.readAt_eq_ld, harg3.read_unread, harg6.read_unread, harg7.read_unread, harg9.read_unread,
        View.ld_unit_zero (S := S400x10000) zeroOffsets, View.ld_unit_zero (S := S10000x128) zeroOffsets,
        View.ld_unit_zero (S := S128x128) zeroOffsets, View.ld_unit_zero (S := S1x128) zeroOffsets]
    iexists _; isplitr; · ipureintro; exact harg9.read_unread _
    iexact HS

end Cert.KernelIdeal.Layers

end
-- ==== Proof.IdealLayerFrame.lean ====
import proofs.«148935_g75711683494057_cont_sun_c4_486_14_alg».proof.Proof.IdealLayerRuns
import Idealize.ShloMosaic.Lib.WritesUnit
import Idealize.ShloMosaic.Lib.ValueIdx

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Gen

variable (m : (ℓ : Loc nD τ sig) → Buf (Elt F) ℓ) (ρ : Dev nD → PrngReg)

/-! ## The schedule: fifty points, twenty-five row tiles per layer

Point `t` is (layer `t / 25`, tile `t % 25`). The facts below are decided over the fifty points. -/

/-- The first conditional is taken exactly at the points of layer 0, -/
theorem layer0_iff : ∀ t : Fin cfg0.N, k0_cond1 (grid0.coords t) = 1#1 ↔ t.val < 25 :=
  (by decide +kernel : ∀ t : Fin grid0.N, k0_cond1 (grid0.coords t) = 1#1 ↔ t.val < 25)
/-- the second exactly at the points of layer 1. -/
theorem layer1_iff : ∀ t : Fin cfg0.N, k0_cond2 (grid0.coords t) = 1#1 ↔ 25 ≤ t.val :=
  (by decide +kernel : ∀ t : Fin grid0.N, k0_cond2 (grid0.coords t) = 1#1 ↔ 25 ≤ t.val)
/-- Tile `t` of layer 0 stores its rows at row `400 · t`, column 0 of the scratch. -/
theorem sliceStart : ∀ t : Fin cfg0.N, t.val < 25 → k0_off1 (grid0.coords t) = ![400 * t.val, 0] :=
  (by decide +kernel : ∀ t : Fin grid0.N, t.val < 25 → k0_off1 (grid0.coords t) = ![400 * t.val, 0])

/-- The six input windows are stored into at no point. -/
theorem in0_live : ∀ t : Fin cfg0.N, cfg0.idle 0 (grid0.coords t) = false := by decide +kernel
theorem in1_live : ∀ t : Fin cfg0.N, cfg0.idle 1 (grid0.coords t) = false := by decide +kernel
theorem in2_live : ∀ t : Fin cfg0.N, cfg0.idle 2 (grid0.coords t) = false := by decide +kernel
theorem in3_live : ∀ t : Fin cfg0.N, cfg0.idle 3 (grid0.coords t) = false := by decide +kernel
theorem in4_live : ∀ t : Fin cfg0.N, cfg0.idle 4 (grid0.coords t) = false := by decide +kernel
theorem in5_live : ∀ t : Fin cfg0.N, cfg0.idle 5 (grid0.coords t) = false := by decide +kernel
/-- The output window is left alone through layer 0, and its block (block 0 throughout that layer) is not written
    back there; -/
theorem out_idle : ∀ t : Fin cfg0.N, t.val < 25 → cfg0.idle 6 (grid0.coords t) = true :=
  (by decide +kernel : ∀ t : Fin grid0.N, t.val < 25 → cfg0.idle 6 (grid0.coords t) = true)
theorem out_kept : ∀ t : Fin cfg0.N, t.val < 25 → (cfg0.win 6).flush t = false :=
  (by decide +kernel : ∀ t : Fin grid0.N, t.val < 25 → win0_6.flush t = false)
/-- it is stored at every point of layer 1. -/
theorem out_live : ∀ t : Fin cfg0.N, 25 ≤ t.val → cfg0.idle 6 (grid0.coords t) = false :=
  (by decide +kernel : ∀ t : Fin grid0.N, 25 ≤ t.val → cfg0.idle 6 (grid0.coords t) = false)

/-! ## The staging buffers at a point, the scratch, and the class invariant -/

abbrev buf0 (t : Fin cfg0.N) : Memref sig .tc .vmem S10000x128 .f32 := win0_0.stage (cfg0.slots t 0)
abbrev buf0_whole (t : Fin cfg0.N) : (buf0 t).IsWhole := hstage0_0 ((cfg0.slots t 0).cast nbuf0_0)
abbrev buf1 (t : Fin cfg0.N) : Memref sig .tc .vmem S400x10000 .f32 := win0_1.stage (cfg0.slots t 1)
abbrev buf1_whole (t : Fin cfg0.N) : (buf1 t).IsWhole := hstage0_1 ((cfg0.slots t 1).cast nbuf0_1)
abbrev buf2 (t : Fin cfg0.N) : Memref sig .tc .vmem S128x128 .f32 := win0_2.stage (cfg0.slots t 2)
abbrev buf2_whole (t : Fin cfg0.N) : (buf2 t).IsWhole := hstage0_2 ((cfg0.slots t 2).cast nbuf0_2)
abbrev buf3 (t : Fin cfg0.N) : Memref sig .tc .vmem S1x128 .f32 := win0_3.stage (cfg0.slots t 3)
abbrev buf3_whole (t : Fin cfg0.N) : (buf3 t).IsWhole := hstage0_3 ((cfg0.slots t 3).cast nbuf0_3)
abbrev buf4 (t : Fin cfg0.N) : Memref sig .tc .vmem S128x128 .f32 := win0_4.stage (cfg0.slots t 4)
abbrev buf4_whole (t : Fin cfg0.N) : (buf4 t).IsWhole := hstage0_4 ((cfg0.slots t 4).cast nbuf0_4)
abbrev buf5 (t : Fin cfg0.N) : Memref sig .tc .vmem S1x128 .f32 := win0_5.stage (cfg0.slots t 5)
abbrev buf5_whole (t : Fin cfg0.N) : (buf5 t).IsWhole := hstage0_5 ((cfg0.slots t 5).cast nbuf0_5)
abbrev buf6 (t : Fin cfg0.N) : Memref sig .tc .vmem S400x128 .f32 := win0_6.stage (cfg0.slots t 6)
abbrev buf6_whole (t : Fin cfg0.N) : (buf6 t).IsWhole := hstage0_6 ((cfg0.slots t 6).cast nbuf0_6)
/-- The hidden layer's buffer: the kernel's one scratch operand, whole. -/
abbrev scratchRef : Memref sig .tc .vmem S10000x128 .f32 := Memref.whole cc0_scratch0

/-- What the launch hands the region and takes back: the scratch at any contents and the generator register. -/
theorem classInv_eq (c : Dev nD) :
    (Pipeline.ΦA spec0 c : sProp 𝕄)
      = iprop(iprop((∃ d, owns (c : Thread nD τ) scratchRef fullShare d)) ∗ (∃ r, prngReg c r)) := by
  unfold Pipeline.ΦA; rw [scopedRest0_eq]; simp only [scratchRef, owns_whole]; try rfl

/-! ## The blocks, and the two layers' values

Each input window's block at a point, at its literal type; the hidden layer as layer 0 leaves it in the scratch
(row `r` is row `r % 400` of what tile `r / 400` computes); the output's block at a point of layer 1. -/

abbrev featBlk (c : Dev nD) (t : Fin cfg0.N) : Vec F S10000x128 .f32 := iblk m c 0 t
abbrev adjBlk (c : Dev nD) (t : Fin cfg0.N) : Vec F S400x10000 .f32 := iblk m c 1 t
abbrev w1Blk (c : Dev nD) (t : Fin cfg0.N) : Vec F S128x128 .f32 := iblk m c 2 t
abbrev b1Blk (c : Dev nD) (t : Fin cfg0.N) : Vec F S1x128 .f32 := iblk m c 3 t
abbrev w2Blk (c : Dev nD) (t : Fin cfg0.N) : Vec F S128x128 .f32 := iblk m c 4 t
abbrev b2Blk (c : Dev nD) (t : Fin cfg0.N) : Vec F S1x128 .f32 := iblk m c 5 t

/-- What tile `t` of layer 0 computes: relu((adjacency rows · features) · W1 + b1), 400 × 128. -/
def hiddenTile (c : Dev nD) (t : Fin cfg0.N) : Vec F S400x128 .f32 :=
  k0_pay1 (adjBlk m c t) (featBlk m c t) (w1Blk m c t) (b1Blk m c t)

/-- The layer-0 point whose tile holds row `y 0`, -/
def tileOf (y : S10000x128.Idx) : Fin cfg0.N :=
  ⟨(y 0).val / 400, by have h : (y 0).val < 10000 := ValueIdx.idx2_lt0 y; rw [show cfg0.N = 50 from N_0]; omega⟩
/-- and the row's place inside that tile. -/
def rowIn (y : S10000x128.Idx) : S400x128.Idx :=
  ValueIdx.ix2 (⟨(y 0).val % 400, Nat.mod_lt _ (by norm_num)⟩ : Fin 400) (⟨(y 1).val, ValueIdx.idx2_lt1 y⟩ : Fin 128)

/-- The hidden layer, all 10000 rows. -/
def hidden (c : Dev nD) : Vec F S10000x128 .f32 := fun y => hiddenTile m c (tileOf y) (rowIn y)

/-- What a point of layer 1 computes from the hidden layer: relu((adjacency rows · hidden) · W2 + b2). -/
def outTile (c : Dev nD) (t : Fin cfg0.N) : Vec F S400x128 .f32 :=
  k0_pay2 (adjBlk m c t) (hidden m c) (w2Blk m c t) (b2Blk m c t)

/-- Before point `n` the scratch's rows below `400 · n` hold the hidden layer (all of them from point 25 on). -/
def Filled (c : Dev nD) (n : ℕ) (s : Vec F S10000x128 .f32) : Prop :=
  ∀ y : S10000x128.Idx, (y 0).val < 400 * n → s y = hidden m c y

/-- One more tile: the scratch filled below row `400 · t`, with tile `t`'s rows written over it at row `400 · t`,
    is filled below row `400 · (t + 1)`. A row of the new piece reads the piece (it is row `r % 400` of tile
    `r / 400 = t`); a row outside it reads what was there. -/
theorem filled_step {M : Memref sig .tc .vmem S10000x128 .f32} (hM : M.IsWhole) (c : Dev nD) (t : Fin cfg0.N)
    (s : Vec F S10000x128 .f32) (hs : Filled m c t.val s) (off : Fin 2 → ℕ)
    (inb : ∀ a : Fin 2, off a + S400x128.size a ≤ S10000x128.size a) (hoff : off = ![400 * t.val, 0]) :
    Filled m c (t.val + 1) (M.view.read (Elt F) (M.view.writes (Elt F) (hM.unread s)
      [⟨Rect.unit (s := S10000x128) off S400x128.size inb, hiddenTile m c t⟩])) := by
  intro y hy
  by_cases hr : 400 * t.val ≤ (y 0).val
  · have hx0 : (y (0 : Fin 2)).val = 400 * t.val + (rowIn y (0 : Fin 2)).val := by
      show (y 0).val = 400 * t.val + (y 0).val % 400
      omega
    rw [View.read_writes_cons_rows_of_mem M.view _ inb _ [] y (rowIn y) hoff hx0 rfl]
    have ht : tileOf y = t := Fin.ext (by show (y 0).val / 400 = t.val; omega)
    unfold hidden; rw [ht]
  · rw [View.read_writes_cons_rows_of_not_mem M.view _ inb _ [] y hoff rfl (Or.inl (by omega)), View.writes_nil,
      hM.read_unread]
    exact hs y (by omega)

/-- The region's invariant before point `n`: the scratch at contents filled below row `400 · n`, and the generator
    register. -/
def scratchInv (c : Dev nD) (n : ℕ) : sProp 𝕄 :=
  iprop(iprop(∃ s, ⌜Filled m c n s⌝ ∗ owns (c : Thread nD τ) scratchRef fullShare s) ∗ (∃ r, prngReg c r))

/-! ## The pipeline's proof data -/

/-- The arrays as the region finds them; after the body each input's buffer at its block and the output's at the
    point's layer-1 value (at a point of layer 0 the output's buffer is left as found and not written back, so what
    is named there is never read); the invariant `scratchInv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outTile m c t
  Φ t := scratchInv m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t = outTile m c t := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point. At a point of layer 0 the run writes tile `t`'s rows over a scratch filled below row
    `400 · t`, which is then filled below `400 · (t + 1)` (`filled_step`), and hands the output's buffer back as
    found. At a point of layer 1 the scratch is filled throughout, so it IS the hidden layer, and the run leaves the
    point's layer-1 value in the output's buffer and the scratch as it was. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [show (dats m 0 c).Φ t.succ = scratchInv m c (t.val + 1) from rfl,
    show (dats m 0 c).Φ t.castSucc = scratchInv m c t.val from rfl]
  have hN : t.val < 50 := lt_of_lt_of_eq t.isLt (show cfg0.N = 50 from N_0)
  rw [show (dats m 0 c).leavesExact 0 t = owns (c : Thread nD τ) (buf0 t) fullShare ((dats m 0 c).after 0 t) from by
    unfold Dat.leavesExact; rw [in0_live t], after_in0]
  rw [show (dats m 0 c).leavesExact 1 t = owns (c : Thread nD τ) (buf1 t) fullShare ((dats m 0 c).after 1 t) from by
    unfold Dat.leavesExact; rw [in1_live t], after_in1]
  rw [show (dats m 0 c).leavesExact 2 t = owns (c : Thread nD τ) (buf2 t) fullShare ((dats m 0 c).after 2 t) from by
    unfold Dat.leavesExact; rw [in2_live t], after_in2]
  rw [show (dats m 0 c).leavesExact 3 t = owns (c : Thread nD τ) (buf3 t) fullShare ((dats m 0 c).after 3 t) from by
    unfold Dat.leavesExact; rw [in3_live t], after_in3]
  rw [show (dats m 0 c).leavesExact 4 t = owns (c : Thread nD τ) (buf4 t) fullShare ((dats m 0 c).after 4 t) from by
    unfold Dat.leavesExact; rw [in4_live t], after_in4]
  rw [show (dats m 0 c).leavesExact 5 t = owns (c : Thread nD τ) (buf5 t) fullShare ((dats m 0 c).after 5 t) from by
    unfold Dat.leavesExact; rw [in5_live t], after_in5]
  unfold scratchInv
  by_cases h0 : t.val < 25
  · rw [Dat.leavesExact_idle (dats m 0 c) 6 t (out_idle t h0) (out_kept t h0)]
    iintro ⟨⟨⟨%s, %hs, HS⟩, Hg⟩, Ho, ⟨%d0, H0⟩, ⟨%d1, H1⟩, ⟨%d2, H2⟩, ⟨%d3, H3⟩, ⟨%d4, H4⟩, ⟨%d5, H5⟩, H6⟩
    iapply (run_layer0 c (grid0.coords t) (buf0 t) (buf0_whole t) (buf1 t) (buf1_whole t) (buf2 t) (buf2_whole t)
      (buf3 t) (buf3_whole t) (buf4 t) (buf4_whole t) (buf5 t) (buf5_whole t) (buf6 t) (buf6_whole t)
      scratchRef (Memref.isWhole_whole _) ((layer0_iff t).mpr h0) (fun h => absurd ((layer1_iff t).mp h) (by omega))
      (featBlk m c t) (adjBlk m c t) (w1Blk m c t) (b1Blk m c t) s Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; isplitr; swap; · iexact HS
        ipureintro
        exact filled_step m (Memref.isWhole_whole _) c t s hs _ _ (sliceStart t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h1 : 25 ≤ t.val := by omega
    rw [show (dats m 0 c).leavesExact 6 t = owns (c : Thread nD τ) (buf6 t) fullShare ((dats m 0 c).after 6 t) from by
      unfold Dat.leavesExact; rw [out_live t h1], after_out]
    unfold outTile
    iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
    obtain rfl : s = hidden m c := funext fun y => hs y (by have := ValueIdx.idx2_lt0 y; omega)
    iapply (run_layer1 c (grid0.coords t) (buf0 t) (buf0_whole t) (buf1 t) (buf1_whole t) (buf2 t) (buf2_whole t)
      (buf3 t) (buf3_whole t) (buf4 t) (buf4_whole t) (buf5 t) (buf5_whole t) (buf6 t) (buf6_whole t)
      scratchRef (Memref.isWhole_whole _) (fun h => absurd ((layer0_iff t).mp h) (by omega)) ((layer1_iff t).mpr h1)
      (adjBlk m c t) (w2Blk m c t) (b2Blk m c t) (hidden m c) Set.univ _)
    isplitl [H1]; · iexact H1
    isplitl [H4]; · iexact H4
    isplitl [H5]; · iexact H5
    isplitl [H6]; · iexists _; iexact H6
    isplitl [HS]; · iexact HS
    iintro ⟨H1, H4, H5, H6, HS⟩
    isplitl [HS Hg]
    · isplitl [HS]
      · iexists _; isplitr; swap; · iexact HS
        ipureintro; intro y _; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- The launch hands the region the scratch at anything: nothing is filled yet. -/
theorem hin (c : Dev nD) : Pipeline.ΦA spec0 c ⊢ (dats m 0 c).Φ 0 := by
  rw [show (dats m 0 c).Φ 0 = scratchInv m c 0 from rfl, classInv_eq]; unfold scratchInv
  iintro ⟨⟨%d, HS⟩, Hg⟩
  isplitl [HS]
  · iexists d; isplitr; · ipureintro; intro y hy; exact absurd hy (by omega)
    iexact HS
  iexact Hg

/-- After the last point what the scratch holds is forgotten. -/
theorem hout (c : Dev nD) : (dats m 0 c).Φ (Fin.last cfg0.N) ⊢ Pipeline.ΦA spec0 c := by
  rw [show (dats m 0 c).Φ (Fin.last cfg0.N) = scratchInv m c (Fin.last cfg0.N).val from rfl, classInv_eq]; unfold scratchInv
  iintro ⟨⟨%s, -, HS⟩, Hg⟩
  isplitl [HS]
  · iexists s; iexact HS
  iexact Hg

/-! ## The run and the frame -/

set_option backward.isDefEq.respectTransparency.types false in
/-- Every weakly fair execution of @main terminates, with every array of the pipeline at what the write-backs of the
    proof data leave (the output's: `Dat.arrAt`) and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Layers

end
-- ==== Proof.GcnSpec.lean ====
import Idealize.ShloMosaic.PureOps.Ideal
import Idealize.ShloMosaic.Lib.ValueIdx

noncomputable section

open scoped BigOperators

/-! ## One graph-convolution layer over the extended reals

The kernel and the reference both compute, twice over, `relu((A · Y) · W + b)`: `A` the 10000 × 10000 adjacency,
`Y` the layer's 10000 × 128 input, `W` a 128 × 128 weight matrix, `b` a bias of 128 entries. This module states
that function entry by entry, over index types of literal extents, with no program in sight: it is what both sides are
shown to compute. -/

namespace Cert.Gcn

open Idealize.ShloMosaic Idealize.ShloMosaic.ValueIdx

/-- Entry (r, q) of one layer: the larger of 0 and `∑ₖ (∑ⱼ A[r, j] · Y[j, k]) · W[k, q] + b[q]`. -/
def layer (A : (⟨2, ![10000, 10000]⟩ : Shape).Idx → EReal) (Y : (⟨2, ![10000, 128]⟩ : Shape).Idx → EReal)
    (W : (⟨2, ![128, 128]⟩ : Shape).Idx → EReal) (b : (⟨1, ![128]⟩ : Shape).Idx → EReal) :
    (⟨2, ![10000, 128]⟩ : Shape).Idx → EReal :=
  fun i => max ((∑ k : Fin 128, (∑ j : Fin 10000,
      A (ix2 (⟨(i 0).val, idx2_lt0 i⟩ : Fin 10000) j) * Y (ix2 j k)) * W (ix2 k (⟨(i 1).val, idx2_lt1 i⟩ : Fin 128)))
    + b (ix1 (⟨(i 1).val, idx2_lt1 i⟩ : Fin 128))) 0

/-- The same entry with its coordinates named. -/
theorem layer_ix2 (A : (⟨2, ![10000, 10000]⟩ : Shape).Idx → EReal) (Y : (⟨2, ![10000, 128]⟩ : Shape).Idx → EReal)
    (W : (⟨2, ![128, 128]⟩ : Shape).Idx → EReal) (b : (⟨1, ![128]⟩ : Shape).Idx → EReal) (r : Fin 10000) (q : Fin 128) :
    layer A Y W b (ix2 r q)
      = max ((∑ k : Fin 128, (∑ j : Fin 10000, A (ix2 r j) * Y (ix2 j k)) * W (ix2 k q)) + b (ix1 q)) 0 := rfl

/-- The two layers: the network's result from the features `X`. -/
def net (A : (⟨2, ![10000, 10000]⟩ : Shape).Idx → EReal) (X : (⟨2, ![10000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨2, ![10000, 128]⟩ : Shape).Idx → EReal :=
  layer A (layer A X W1 b1) W2 b2

end Cert.Gcn

end
-- ==== Proof.IdealTileValue.lean ====
import proofs.«148935_g75711683494057_cont_sun_c4_486_14_alg».proof.Proof.Gen.KernelIdeal.Skeleton
import proofs.«148935_g75711683494057_cont_sun_c4_486_14_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-! ## The two products read at an entry

Each product contracts the left operand's second axis against the right operand's first; its operand indices at an
output entry and a contraction index are computed axis by axis, and the sum over the one-axis contraction index set is
carried to the sum over its coordinate. -/

theorem lhs_ay_0 (i : S400x128.Idx) (c : dot_S400x10000_S10000x128_S400x128_1_0_0_1_n_n.contr.Idx) :
    (dot_S400x10000_S10000x128_S400x128_1_0_0_1_n_n.lhsIdx i c 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_ay_1 (i : S400x128.Idx) (c : dot_S400x10000_S10000x128_S400x128_1_0_0_1_n_n.contr.Idx) :
    (dot_S400x10000_S10000x128_S400x128_1_0_0_1_n_n.lhsIdx i c 1).val = (c ⟨0, by decide⟩).val :=
  dot_S400x10000_S10000x128_S400x128_1_0_0_1_n_n.lhsIdx_val_of_single rfl i c
theorem rhs_ay_0 (i : S400x128.Idx) (c : dot_S400x10000_S10000x128_S400x128_1_0_0_1_n_n.contr.Idx) :
    (dot_S400x10000_S10000x128_S400x128_1_0_0_1_n_n.rhsIdx i c 0).val = (c ⟨0, by decide⟩).val :=
  dot_S400x10000_S10000x128_S400x128_1_0_0_1_n_n.rhsIdx_val_of_single rfl i c
theorem rhs_ay_1 (i : S400x128.Idx) (c : dot_S400x10000_S10000x128_S400x128_1_0_0_1_n_n.contr.Idx) :
    (dot_S400x10000_S10000x128_S400x128_1_0_0_1_n_n.rhsIdx i c 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry (p, q) of a 400 × 10000 by 10000 × 128 product into a zero accumulator: the sum over k of l[p, k] · r[k, q]. -/
theorem ay_apply (l : FVec Ideal S400x10000 .f32) (r : FVec Ideal S10000x128 .f32) (p : Fin 400) (q : Fin 128) :
    matmul (F := Ideal) dot_S400x10000_S10000x128_S400x128_1_0_0_1_n_n none l r (constant (F := Ideal) S400x128 .f32 0x00000000#32) (ix2 p q)
      = ∑ k : Fin 10000, l (ix2 p k) * r (ix2 k q) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun a => Fin.ext (by
    match a with
    | ⟨0, _⟩ => exact lhs_ay_0 _ _
    | ⟨1, _⟩ => exact (lhs_ay_1 _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun a => Fin.ext (by
    match a with
    | ⟨0, _⟩ => exact (rhs_ay_0 _ _).trans hk
    | ⟨1, _⟩ => exact rhs_ay_1 _ _)
  rw [el, er]

theorem lhs_hw_0 (i : S400x128.Idx) (c : dot_S400x128_S128x128_S400x128_1_0_0_1_n_n.contr.Idx) :
    (dot_S400x128_S128x128_S400x128_1_0_0_1_n_n.lhsIdx i c 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_hw_1 (i : S400x128.Idx) (c : dot_S400x128_S128x128_S400x128_1_0_0_1_n_n.contr.Idx) :
    (dot_S400x128_S128x128_S400x128_1_0_0_1_n_n.lhsIdx i c 1).val = (c ⟨0, by decide⟩).val :=
  dot_S400x128_S128x128_S400x128_1_0_0_1_n_n.lhsIdx_val_of_single rfl i c
theorem rhs_hw_0 (i : S400x128.Idx) (c : dot_S400x128_S128x128_S400x128_1_0_0_1_n_n.contr.Idx) :
    (dot_S400x128_S128x128_S400x128_1_0_0_1_n_n.rhsIdx i c 0).val = (c ⟨0, by decide⟩).val :=
  dot_S400x128_S128x128_S400x128_1_0_0_1_n_n.rhsIdx_val_of_single rfl i c
theorem rhs_hw_1 (i : S400x128.Idx) (c : dot_S400x128_S128x128_S400x128_1_0_0_1_n_n.contr.Idx) :
    (dot_S400x128_S128x128_S400x128_1_0_0_1_n_n.rhsIdx i c 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Entry (p, q) of a 400 × 128 by 128 × 128 product into a zero accumulator: the sum over k of l[p, k] · r[k, q]. -/
theorem hw_apply (l : FVec Ideal S400x128 .f32) (r : FVec Ideal S128x128 .f32) (p : Fin 400) (q : Fin 128) :
    matmul (F := Ideal) dot_S400x128_S128x128_S400x128_1_0_0_1_n_n none l r (constant (F := Ideal) S400x128 .f32 0x00000000#32) (ix2 p q)
      = ∑ k : Fin 128, l (ix2 p k) * r (ix2 k q) := by
  simp only [matmul]
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k := funext fun a => Fin.ext (by
    match a with
    | ⟨0, _⟩ => exact lhs_hw_0 _ _
    | ⟨1, _⟩ => exact (lhs_hw_1 _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q := funext fun a => Fin.ext (by
    match a with
    | ⟨0, _⟩ => exact (rhs_hw_0 _ _).trans hk
    | ⟨1, _⟩ => exact rhs_hw_1 _ _)
  rw [el, er]

/-! ## One layer's arithmetic as a single term, read at an entry -/

/-- The layer's arithmetic: the two products, the bias row repeated down the 400 rows, and the maximum with 0. -/
def tile (a : FVec Ideal S400x10000 .f32) (y : FVec Ideal S10000x128 .f32) (w : FVec Ideal S128x128 .f32)
    (b : FVec Ideal S1x128 .f32) : FVec Ideal S400x128 .f32 :=
  maximumf
    (addf
      (matmul (F := Ideal) dot_S400x128_S128x128_S400x128_1_0_0_1_n_n none
        (matmul (F := Ideal) dot_S400x10000_S10000x128_S400x128_1_0_0_1_n_n none a y (constant (F := Ideal) S400x128 .f32 0x00000000#32))
        w (constant (F := Ideal) S400x128 .f32 0x00000000#32))
      (broadcastTo S400x128 (shapeCast S1x128 b Facts₀.shapeCasts_S1x128_S1x128) Facts₀.broadcasts_S1x128_S400x128))
    (broadcast S400x128 (Scalar.ofBits (F := Ideal) .f32 0x00000000#32))

/-- The bias row, cast to its own shape and repeated down the rows, read at (p, q) is b[0, q]. -/
theorem bias_apply (b : FVec Ideal S1x128 .f32) (p : Fin 400) (q : Fin 128) :
    broadcastTo S400x128 (shapeCast S1x128 b Facts₀.shapeCasts_S1x128_S1x128) Facts₀.broadcasts_S1x128_S400x128 (ix2 p q)
      = b (ix2 (0 : Fin 1) q) := by
  rw [shapeCast_self]
  exact broadcastTo_apply b Facts₀.broadcasts_S1x128_S400x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- Entry (p, q) of the layer's arithmetic. -/
theorem tile_apply (a : FVec Ideal S400x10000 .f32) (y : FVec Ideal S10000x128 .f32) (w : FVec Ideal S128x128 .f32)
    (b : FVec Ideal S1x128 .f32) (p : Fin 400) (q : Fin 128) :
    tile a y w b (ix2 p q)
      = max ((∑ k : Fin 128, (∑ j : Fin 10000, a (ix2 p j) * y (ix2 j k)) * w (ix2 k q)) + b (ix2 (0 : Fin 1) q)) 0 := by
  have h1 : matmul (F := Ideal) dot_S400x128_S128x128_S400x128_1_0_0_1_n_n none
        (matmul (F := Ideal) dot_S400x10000_S10000x128_S400x128_1_0_0_1_n_n none a y (constant (F := Ideal) S400x128 .f32 0x00000000#32))
        w (constant (F := Ideal) S400x128 .f32 0x00000000#32) (ix2 p q)
      = ∑ k : Fin 128, (∑ j : Fin 10000, a (ix2 p j) * y (ix2 j k)) * w (ix2 k q) := by
    refine (hw_apply _ w p q).trans ?_
    exact Finset.sum_congr rfl fun k _ => congrArg (· * w (ix2 k q)) (ay_apply a y p k)
  have h3 : (Scalar.ofBits (F := Ideal) .f32 0x00000000#32) = (0 : EReal) := Ideal.ofBits_zero_f32
  show max (_ + _) _ = _
  rw [h1, bias_apply b p q, h3]
  rfl

/-- What a point of layer 0 stores, entry (p, q) of its 400 × 128 tile, over the extended reals: the larger of 0 and
    `∑ₖ (∑ⱼ a[p, j] · y[j, k]) · w[k, q] + b[0, q]`. -/
theorem tile0_apply (a : Vec Ideal S400x10000 .f32) (y : Vec Ideal S10000x128 .f32) (w : Vec Ideal S128x128 .f32)
    (b : Vec Ideal S1x128 .f32) (p : Fin 400) (q : Fin 128) :
    k0_pay1 (F := Ideal) a y w b (ix2 p q)
      = max ((∑ k : Fin 128, (∑ j : Fin 10000, a (ix2 p j) * y (ix2 j k)) * w (ix2 k q)) + b (ix2 (0 : Fin 1) q)) 0 := by
  have e : k0_pay1 (F := Ideal) a y w b = tile a y w b :=
    shapeCast_self (tile a y w b) Facts₀.shapeCasts_S400x128_S400x128
  rw [e]
  exact tile_apply a y w b p q

/-- What a point of layer 1 stores: the same function of its operands. -/
theorem tile1_apply (a : Vec Ideal S400x10000 .f32) (y : Vec Ideal S10000x128 .f32) (w : Vec Ideal S128x128 .f32)
    (b : Vec Ideal S1x128 .f32) (p : Fin 400) (q : Fin 128) :
    k0_pay2 (F := Ideal) a y w b (ix2 p q)
      = max ((∑ k : Fin 128, (∑ j : Fin 10000, a (ix2 p j) * y (ix2 j k)) * w (ix2 k q)) + b (ix2 (0 : Fin 1) q)) 0 := by
  exact tile_apply a y w b p q

end Cert.KernelIdeal.TileValue

end
-- ==== Proof.IdealNetValue.lean ====
import proofs.«148935_g75711683494057_cont_sun_c4_486_14_alg».proof.Proof.IdealLayerFrame
import proofs.«148935_g75711683494057_cont_sun_c4_486_14_alg».proof.Proof.IdealTileValue
import proofs.«148935_g75711683494057_cont_sun_c4_486_14_alg».proof.Proof.GcnSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.NetValue

open Cert.KernelIdeal Cert.KernelIdeal.Gen Cert.KernelIdeal.Layers Cert.KernelIdeal.TileValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where the blocks sit

Point `t` is (layer `t / 25`, tile `t % 25`). The adjacency's block at `t` is rows `400 · (t % 25)` onward, all columns;
the features, the weights and the bias rows are staged whole; the output's block is block `(t / 25) · (t % 25)`: block
0 throughout layer 0, block `t - 25` in layer 1. Decided over the fifty points. -/

theorem idx_facts : ∀ t : Fin cfg0.N,
    win0_0.index t (0 : Fin 2) = 0 ∧ win0_0.index t (1 : Fin 2) = 0
    ∧ win0_1.index t (0 : Fin 2) = t.val % 25 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = (t.val / 25) * (t.val % 25) ∧ win0_6.index t (1 : Fin 2) = 0 :=
  (by decide +kernel : ∀ t : Fin grid0.N, _)

/-- The output's block is written back exactly at the points of layer 1. -/
theorem out_flush_iff : ∀ t : Fin cfg0.N, (cfg0.win 6).flush t = true ↔ 25 ≤ t.val :=
  (by decide +kernel : ∀ t : Fin grid0.N, win0_6.flush t = true ↔ 25 ≤ t.val)

/-! ## The input blocks, read off the arrays as the region finds them -/

/-- The features are staged whole. -/
theorem featBlk_apply (c : Dev nD) (t : Fin cfg0.N) (j : Fin 10000) (k : Fin 128) :
    featBlk m c t (ix2 j k) = V m c main_arg0 (ix2 j k) := by
  obtain ⟨e0, e1, -⟩ := idx_facts t
  show V m c main_arg0 (((cfg0.win 0).blk t).view.emb (ix2 j k)) = V m c main_arg0 (ix2 j k)
  refine congrArg (V m c main_arg0) (funext fun a => Fin.ext ?_)
  match a with
  | ⟨0, _⟩ => show win0_0.index t (0 : Fin 2) * 10000 + 1 * j.val = j.val; rw [e0]; omega
  | ⟨1, _⟩ => show win0_0.index t (1 : Fin 2) * 128 + 1 * k.val = k.val; rw [e1]; omega

/-- Row `p` of the adjacency's block at point `t` is row `400 · (t % 25) + p` of the adjacency. -/
theorem adjBlk_apply (c : Dev nD) (t : Fin cfg0.N) (p : Fin 400) (j : Fin 10000) (r : Fin 10000)
    (hr : r.val = 400 * (t.val % 25) + p.val) :
    adjBlk m c t (ix2 p j) = V m c main_arg1 (ix2 r j) := by
  obtain ⟨-, -, e0, e1, -⟩ := idx_facts t
  show V m c main_arg1 (((cfg0.win 1).blk t).view.emb (ix2 p j)) = V m c main_arg1 (ix2 r j)
  refine congrArg (V m c main_arg1) (funext fun a => Fin.ext ?_)
  match a with
  | ⟨0, _⟩ => show win0_1.index t (0 : Fin 2) * 400 + 1 * p.val = r.val; rw [e0]; omega
  | ⟨1, _⟩ => show win0_1.index t (1 : Fin 2) * 10000 + 1 * j.val = j.val; rw [e1]; omega

/-- The first weights are staged whole, -/
theorem w1Blk_apply (c : Dev nD) (t : Fin cfg0.N) (k : Fin 128) (q : Fin 128) :
    w1Blk m c t (ix2 k q) = V m c main_arg2 (ix2 k q) := by
  obtain ⟨-, -, -, -, e0, e1, -⟩ := idx_facts t
  show V m c main_arg2 (((cfg0.win 2).blk t).view.emb (ix2 k q)) = V m c main_arg2 (ix2 k q)
  refine congrArg (V m c main_arg2) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- and the second. -/
theorem w2Blk_apply (c : Dev nD) (t : Fin cfg0.N) (k : Fin 128) (q : Fin 128) :
    w2Blk m c t (ix2 k q) = V m c main_arg4 (ix2 k q) := by
  obtain ⟨-, -, -, -, -, -, -, -, e0, e1, -⟩ := idx_facts t
  show V m c main_arg4 (((cfg0.win 4).blk t).view.emb (ix2 k q)) = V m c main_arg4 (ix2 k q)
  refine congrArg (V m c main_arg4) (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The first bias is staged as its one row, which @main laid out from the bias before the region: -/
theorem b1Blk_apply (c : Dev nD) (t : Fin cfg0.N) (q : Fin 128) :
    b1Blk m c t (ix2 (0 : Fin 1) q) = V m c main_v0 (ix2 (0 : Fin 1) q) := by
  obtain ⟨-, -, -, -, -, -, e0, e1, -⟩ := idx_facts t
  show V m c main_v0 (((cfg0.win 3).blk t).view.emb (ix2 (0 : Fin 1) q)) = V m c main_v0 (ix2 (0 : Fin 1) q)
  refine congrArg (V m c main_v0) (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

theorem b2Blk_apply (c : Dev nD) (t : Fin cfg0.N) (q : Fin 128) :
    b2Blk m c t (ix2 (0 : Fin 1) q) = V m c main_v1 (ix2 (0 : Fin 1) q) := by
  obtain ⟨-, -, -, -, -, -, -, -, -, -, e0, e1, -⟩ := idx_facts t
  show V m c main_v1 (((cfg0.win 5).blk t).view.emb (ix2 (0 : Fin 1) q)) = V m c main_v1 (ix2 (0 : Fin 1) q)
  refine congrArg (V m c main_v1) (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

/-- entry `(0, q)` of the row is entry `q` of the bias. -/
theorem biasRow1_apply (c : Dev nD) (q : Fin 128) :
    V m c main_v0 (ix2 (0 : Fin 1) q) = m ((c : Thread nD τ).loc main_arg3) (ix1 q) := by
  have e : (V m c main_v0 : S1x128.Idx → EReal)
      = shapeCast S1x128 (m ((c : Thread nD τ).loc main_arg3)) shapeCasts_S128_S1x128 := by
    dsimp only [V, hostOps0]; after_results; rfl
  rw [e]
  exact shapeCast_a_1a_apply _ _ 0 q

theorem biasRow2_apply (c : Dev nD) (q : Fin 128) :
    V m c main_v1 (ix2 (0 : Fin 1) q) = m ((c : Thread nD τ).loc main_arg5) (ix1 q) := by
  have e : (V m c main_v1 : S1x128.Idx → EReal)
      = shapeCast S1x128 (m ((c : Thread nD τ).loc main_arg5)) shapeCasts_S128_S1x128 := by
    dsimp only [V, hostOps0]; after_results; rfl
  rw [e]
  exact shapeCast_a_1a_apply _ _ 0 q

/-! ## The two layers' values are the layer function of the arrays -/

/-- A tile's entry, once its operands are read off the arrays, is an entry of the layer function. -/
theorem tile_layer (a : S400x10000.Idx → EReal) (y : S10000x128.Idx → EReal) (w : S128x128.Idx → EReal) (b : S1x128.Idx → EReal)
    (A : S10000x10000.Idx → EReal) (Y : S10000x128.Idx → EReal) (W : S128x128.Idx → EReal) (B : S128.Idx → EReal)
    (p : Fin 400) (q : Fin 128) (r : Fin 10000)
    (ha : ∀ j : Fin 10000, a (ix2 p j) = A (ix2 r j)) (hy : ∀ (j : Fin 10000) (k : Fin 128), y (ix2 j k) = Y (ix2 j k))
    (hw : ∀ k : Fin 128, w (ix2 k q) = W (ix2 k q)) (hb : b (ix2 (0 : Fin 1) q) = B (ix1 q)) :
    max ((∑ k : Fin 128, (∑ j : Fin 10000, a (ix2 p j) * y (ix2 j k)) * w (ix2 k q)) + b (ix2 (0 : Fin 1) q)) 0
      = Cert.Gcn.layer A Y W B (ix2 r q) := by
  rw [Cert.Gcn.layer_ix2, hb]
  simp only [ha, hy, hw]

/-- The arrays the network is a function of: the arguments as launched. -/
abbrev argX (c : Dev nD) : S10000x128.Idx → EReal := m ((c : Thread nD τ).loc main_arg0)
abbrev argA (c : Dev nD) : S10000x10000.Idx → EReal := m ((c : Thread nD τ).loc main_arg1)
abbrev argW1 (c : Dev nD) : S128x128.Idx → EReal := m ((c : Thread nD τ).loc main_arg2)
abbrev argB1 (c : Dev nD) : S128.Idx → EReal := m ((c : Thread nD τ).loc main_arg3)
abbrev argW2 (c : Dev nD) : S128x128.Idx → EReal := m ((c : Thread nD τ).loc main_arg4)
abbrev argB2 (c : Dev nD) : S128.Idx → EReal := m ((c : Thread nD τ).loc main_arg5)

/-- What layer 0 leaves in the scratch is the first layer of the arguments: row `r` is row `r % 400` of tile
    `r / 400`, whose adjacency rows start at row `400 · (r / 400)`. -/
theorem hidden_eq (c : Dev nD) :
    hidden m c = Cert.Gcn.layer (argA m c) (argX m c) (argW1 m c) (argB1 m c) := by
  funext y
  obtain ⟨r, q, rfl⟩ : ∃ (r : Fin 10000) (q : Fin 128), y = ix2 r q := ⟨y 0, y 1, eq_ix2 y⟩
  have hN : (tileOf (ix2 r q)).val = r.val / 400 := rfl
  have hlt : r.val / 400 < 25 := by have := r.isLt; omega
  show hiddenTile m c (tileOf (ix2 r q)) (ix2 (⟨r.val % 400, Nat.mod_lt _ (by norm_num)⟩ : Fin 400) q) = _
  unfold hiddenTile
  refine (tile0_apply _ _ _ _ _ q).trans ?_
  refine tile_layer _ _ _ _ _ _ _ _ _ q r (fun j => ?_) (fun j k => ?_) (fun k => ?_) ?_
  · rw [adjBlk_apply m c (tileOf (ix2 r q)) _ j r (by rw [hN]; show r.val = 400 * (r.val / 400 % 25) + r.val % 400; omega),
      V_main_arg1]
  · rw [featBlk_apply, V_main_arg0]
  · rw [w1Blk_apply, V_main_arg2]
  · rw [b1Blk_apply, biasRow1_apply]

/-- What a point of layer 1 leaves in the output's buffer is its 400 rows of the network's result. -/
theorem outTile_apply (c : Dev nD) (t : Fin cfg0.N) (ht : 25 ≤ t.val) (p : Fin 400) (q : Fin 128) (r : Fin 10000)
    (hr : r.val = 400 * (t.val - 25) + p.val) :
    outTile m c t (ix2 p q)
      = Cert.Gcn.net (argA m c) (argX m c) (argW1 m c) (argB1 m c) (argW2 m c) (argB2 m c) (ix2 r q) := by
  have hN : t.val < 50 := lt_of_lt_of_eq t.isLt (show cfg0.N = 50 from N_0)
  unfold outTile Cert.Gcn.net
  rw [← hidden_eq m c]
  refine (tile1_apply _ _ _ _ p q).trans ?_
  refine tile_layer _ _ _ _ _ _ _ _ p q r (fun j => ?_) (fun j k => rfl) (fun k => ?_) ?_
  · rw [adjBlk_apply m c t p j r (by omega), V_main_arg1]
  · rw [w2Blk_apply, V_main_arg4]
  · rw [b2Blk_apply, biasRow2_apply]

/-! ## From the blocks to the array -/

/-- The network's result as the output array's contents. -/
abbrev result (c : Dev nD) : S10000x128.Idx → EReal :=
  Cert.Gcn.net (argA m c) (argX m c) (argW1 m c) (argB1 m c) (argW2 m c) (argB2 m c)

/-- What a point of layer 1 writes back is its block of the result: block `t - 25`, rows `400 · (t - 25)` onward. -/
theorem flushed_out (c : Dev nD) (t : Fin cfg0.N) (ht : 25 ≤ t.val) :
    (dats m 0 c).flushed 6 t = ((cfg0.win 6).blk t).view.read (Elt Ideal) (result m c) := by
  have hN : t.val < 50 := lt_of_lt_of_eq t.isLt (show cfg0.N = 50 from N_0)
  obtain ⟨-, -, -, -, -, -, -, -, -, -, -, -, e0, e1⟩ := idx_facts t
  show (cfg0.win 6).cut (grid0.coords t) ((dats m 0 c).after 6 t) = _
  rw [after_out]
  refine funext fun (y : S400x128.Idx) => ?_
  obtain ⟨p, q, rfl⟩ : ∃ (p : Fin 400) (q : Fin 128), y = ix2 p q := ⟨y 0, y 1, eq_ix2 y⟩
  show outTile m c t (ix2 p q) = result m c (((cfg0.win 6).blk t).view.emb (ix2 p q))
  have hp := p.isLt
  have he : ((cfg0.win 6).blk t).view.emb (ix2 p q)
      = ix2 (⟨400 * (t.val - 25) + p.val, by omega⟩ : Fin 10000) q := funext fun a => Fin.ext (by
    match a with
    | ⟨0, _⟩ =>
      show win0_6.index t (0 : Fin 2) * 400 + 1 * p.val = 400 * (t.val - 25) + p.val
      have hd : t.val / 25 = 1 := by omega
      rw [e0, hd]; omega
    | ⟨1, _⟩ => show win0_6.index t (1 : Fin 2) * 128 + 1 * q.val = q.val; rw [e1]; omega)
  rw [he]
  exact outTile_apply m c t ht p q _ rfl

/-- An index of the output array is in point `t`'s block iff each coordinate is in the block's range on its axis. -/
theorem mem_blk_out (t : Fin cfg0.N) (i : S10000x128.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v2).slice (win0_6.rect t)).set ↔ _
  rw [View.set_slice_whole, Rect.mem_set_unit]
  exact Iff.rfl

/-- Every row of the output lies in the block of one point of layer 1: row `r` in that of point `25 + r / 400`. -/
theorem covered (i : S10000x128.Idx) :
    ∃ t : Fin cfg0.N, (cfg0.win 6).flush t = true ∧ i ∈ ((cfg0.win 6).blk t).view.set := by
  have h0 : (i 0).val < 10000 := idx2_lt0 i
  have h1 : (i 1).val < 128 := idx2_lt1 i
  have hlt : 25 + (i 0).val / 400 < cfg0.N := by rw [show cfg0.N = 50 from N_0]; omega
  refine ⟨⟨25 + (i 0).val / 400, hlt⟩, (out_flush_iff _).mpr (by show 25 ≤ 25 + (i 0).val / 400; omega), ?_⟩
  obtain ⟨-, -, -, -, -, -, -, -, -, -, -, -, e0, e1⟩ := idx_facts ⟨25 + (i 0).val / 400, hlt⟩
  have e0' : win0_6.index ⟨25 + (i 0).val / 400, hlt⟩ (0 : Fin 2) = (25 + (i 0).val / 400) / 25 * ((25 + (i 0).val / 400) % 25) := e0
  rw [mem_blk_out]
  intro a
  match a with
  | ⟨0, _⟩ =>
    show win0_6.index ⟨25 + (i 0).val / 400, hlt⟩ (0 : Fin 2) * 400 ≤ (i 0).val
      ∧ (i 0).val < win0_6.index ⟨25 + (i 0).val / 400, hlt⟩ (0 : Fin 2) * 400 + 400
    rw [e0']
    have hd : (25 + (i 0).val / 400) / 25 = 1 := by omega
    rw [hd]
    omega
  | ⟨1, _⟩ =>
    show win0_6.index ⟨25 + (i 0).val / 400, hlt⟩ (1 : Fin 2) * 128 ≤ (i 1).val
      ∧ (i 1).val < win0_6.index ⟨25 + (i 0).val / 400, hlt⟩ (1 : Fin 2) * 128 + 128
    rw [e1]
    omega

/-- The output array after the run is the network's result. -/
theorem final (c : Dev nD) : (dats m 0 c).arrAt 6 cfg0.N = result m c :=
  (dats m 0 c).arrAt_eq_of_cover 6 (result m c) (fun t hf => flushed_out m c t ((out_flush_iff t).mp hf)) covered

/-! ## The run, read -/

/-- Every weakly fair execution terminates with the result array at the network of the arguments as launched, and
    the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.NetValue

end
-- ==== Proof.RefLayers.lean ====
import proofs.«148935_g75711683494057_cont_sun_c4_486_14_alg».proof.Proof.Gen.ReferenceIdeal.Run
import proofs.«148935_g75711683494057_cont_sun_c4_486_14_alg».proof.Proof.Gen.ReferenceIdeal.Read
import proofs.«148935_g75711683494057_cont_sun_c4_486_14_alg».proof.Proof.GcnSpec

noncomputable section

open scoped BigOperators

namespace Cert.ReferenceIdeal.RefLayers

open Cert.ReferenceIdeal Cert.ReferenceIdeal.Gen Cert.ReferenceIdeal.Read Idealize.ShloMosaic Idealize.ShloMosaic.ValueIdx

/-- The reference's first layer, over the extended reals, is the layer function of its arguments, entry by entry. -/
theorem hidden_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v5 (F := Ideal) x0 x1 x2 x3 = Cert.Gcn.layer x1 x0 x2 x3 := by
  funext i
  have eA : ∀ (k : Fin 128) (j : Fin 10000),
      lidx_main_v0 (lidx_main_v1 i k) j = ix2 (⟨(i 0).val, idx2_lt0 i⟩ : Fin 10000) j := fun k j =>
    funext fun a => Fin.ext (by match a with | ⟨0, _⟩ => rfl | ⟨1, _⟩ => rfl)
  have eY : ∀ (k : Fin 128) (j : Fin 10000), ridx_main_v0 (lidx_main_v1 i k) j = ix2 j k := fun k j =>
    funext fun a => Fin.ext (by match a with | ⟨0, _⟩ => rfl | ⟨1, _⟩ => rfl)
  have eW : ∀ k : Fin 128, ridx_main_v1 i k = ix2 k (⟨(i 1).val, idx2_lt1 i⟩ : Fin 128) := fun k =>
    funext fun a => Fin.ext (by match a with | ⟨0, _⟩ => rfl | ⟨1, _⟩ => rfl)
  have eb : idx_main_v2 (idx_main_v3 i) = ix1 (⟨(i 1).val, idx2_lt1 i⟩ : Fin 128) :=
    funext fun a => Fin.ext (by match a with | ⟨0, _⟩ => rfl)
  rw [val_main_v5_apply, val_main_v4_apply, val_main_v1_apply, val_main_v3_apply, val_main_v2_apply,
    val_main_call0_v0_apply, val_main_call0_cst_apply]
  simp only [val_main_v0_apply, eA, eY, eW, eb, Ideal.maximumf_def, Ideal.addf_def, Ideal.ofBits_def,
    Ideal.ofBits_zero_f32]
  rfl

/-- The reference's result, over the extended reals, is the two-layer network of its arguments. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v11 (F := Ideal) x0 x1 x2 x3 x4 x5 = Cert.Gcn.net x1 x0 x2 x3 x4 x5 := by
  funext i
  have eA : ∀ (k : Fin 128) (j : Fin 10000),
      lidx_main_v6 (lidx_main_v7 i k) j = ix2 (⟨(i 0).val, idx2_lt0 i⟩ : Fin 10000) j := fun k j =>
    funext fun a => Fin.ext (by match a with | ⟨0, _⟩ => rfl | ⟨1, _⟩ => rfl)
  have eY : ∀ (k : Fin 128) (j : Fin 10000), ridx_main_v6 (lidx_main_v7 i k) j = ix2 j k := fun k j =>
    funext fun a => Fin.ext (by match a with | ⟨0, _⟩ => rfl | ⟨1, _⟩ => rfl)
  have eW : ∀ k : Fin 128, ridx_main_v7 i k = ix2 k (⟨(i 1).val, idx2_lt1 i⟩ : Fin 128) := fun k =>
    funext fun a => Fin.ext (by match a with | ⟨0, _⟩ => rfl | ⟨1, _⟩ => rfl)
  have eb : idx_main_v8 (idx_main_v9 i) = ix1 (⟨(i 1).val, idx2_lt1 i⟩ : Fin 128) :=
    funext fun a => Fin.ext (by match a with | ⟨0, _⟩ => rfl)
  rw [val_main_v11_apply, val_main_v10_apply, val_main_v7_apply, val_main_v9_apply, val_main_v8_apply,
    val_main_call1_v0_apply, val_main_call1_cst_apply]
  simp only [val_main_v6_apply, hidden_eq, eA, eY, eW, eb, Ideal.maximumf_def, Ideal.addf_def, Ideal.ofBits_def,
    Ideal.ofBits_zero_f32]
  rfl

end Cert.ReferenceIdeal.RefLayers

end
-- ==== Proof.lean ====
/- The certificate: a two-layer dense graph-convolution network, h ↦ relu((A · h) · W + b) applied twice, computed by
   one kernel on a grid of (layer, row tile) against the same two layers on the host.

   The kernel keeps the hidden layer in a scratch buffer: the 25 points of layer 0 each compute 400 rows of
   relu((A · X) · W1 + b1) and store them in their place in the scratch; the 25 points of layer 1 read the whole scratch
   and each write 400 rows of relu((A · hidden) · W2 + b2) to the output. The frame proofs carry, as the region's
   invariant, that before point n the scratch's rows below 400 · n hold the hidden layer; from point 25 on that is all
   of it. Over the extended reals each tile's entry is the entry of the layer function at its row of the whole array
   (the same sums, with the tile's rows found in the arrays), the output's blocks of layer 1 tile the result array, and
   the reference's two layers are the same layer function of its arguments; so both programs end at `Cert.Gcn.net` of
   the arguments. No algebraic law joins the two sides: the sums are the same sums, term by term. -/
import proofs.«148935_g75711683494057_cont_sun_c4_486_14_alg».proof.Defs
import proofs.«148935_g75711683494057_cont_sun_c4_486_14_alg».proof.Proof.Gen.Kernel
import proofs.«148935_g75711683494057_cont_sun_c4_486_14_alg».proof.Proof.Gen.KernelIdeal
import proofs.«148935_g75711683494057_cont_sun_c4_486_14_alg».proof.Proof.Gen.ReferenceIdeal
import proofs.«148935_g75711683494057_cont_sun_c4_486_14_alg».proof.Proof.Gen.Pre_finite_inputs
import proofs.«148935_g75711683494057_cont_sun_c4_486_14_alg».proof.Proof.Gen.ReferenceIdeal.Run
import proofs.«148935_g75711683494057_cont_sun_c4_486_14_alg».proof.Proof.Gen.ReferenceIdeal.Read
import proofs.«148935_g75711683494057_cont_sun_c4_486_14_alg».proof.Proof.BitsLayerFrame
import proofs.«148935_g75711683494057_cont_sun_c4_486_14_alg».proof.Proof.IdealLayerFrame
import proofs.«148935_g75711683494057_cont_sun_c4_486_14_alg».proof.Proof.IdealNetValue
import proofs.«148935_g75711683494057_cont_sun_c4_486_14_alg».proof.Proof.RefLayers
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Layers.frame m ρ

/-- So does the kernel read over the extended reals. -/
theorem frame_kernelIdeal : Cert.frame_KernelIdeal := fun m ρ _ => Cert.KernelIdeal.Layers.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at the two-layer network
    of those arguments. -/
theorem algebraic : Cert.algebraic_KernelIdeal_ReferenceIdeal := by
  intro m ρ m' ρ' _ hagree
  refine ⟨fun c => Cert.KernelIdeal.NetValue.result m c, Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v11_eq, Cert.ReferenceIdeal.RefLayers.result_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
